-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 50257#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S1x50257 : Shape := ⟨2, ![1, 50257]⟩
abbrev S64x50257 : Shape := ⟨2, ![64, 50257]⟩
abbrev S64x1 : Shape := ⟨2, ![64, 1]⟩
abbrev S64 : Shape := ⟨1, ![64]⟩

abbrev nBuf : Space → Nat
  | .hbm => 18
  | .vmem => 7
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1x50257, .i32⟩
  | .hbm, ⟨12, _⟩ => ⟨S4096x1, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S64x50257, .f32⟩
  | .local _ .vmem, ⟨1, _⟩ => ⟨S64x50257, .f32⟩
  | .local _ .vmem, ⟨2, _⟩ => ⟨S64x1, .i32⟩
  | .local _ .vmem, ⟨3, _⟩ => ⟨S64x1, .i32⟩
  | .local _ .vmem, ⟨4, _⟩ => ⟨S1x50257, .i32⟩
  | .local _ .vmem, ⟨5, _⟩ => ⟨S64x1, .f32⟩
  | .local _ .vmem, ⟨6, _⟩ => ⟨S64x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x50257 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  shapeCasts_S4096_S4096x1 : S4096.ShapeCasts S4096x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x50257_S1x50257_0_0 : ∀ a, (![0, 0] : Fin 2 → Nat) a + S1x50257.size a ≤ S1x50257.size a
  h_S1x50257 : 0 < S1x50257.numel
  shapeCasts_S1x50257_S1x50257 : S1x50257.ShapeCasts S1x50257
  broadcasts_S1x50257_S64x50257 : S1x50257.Broadcasts S64x50257
  broadcasts_S64x1_S64x50257 : S64x1.Broadcasts S64x50257
  inb_S64x50257_S64x50257_0_0 : ∀ a, (![0, 0] : Fin 2 → Nat) a + S64x50257.size a ≤ S64x50257.size a
  h_S64x50257 : 0 < S64x50257.numel
  reduces_S64x50257_S64 : S64x50257.Reduces [1] S64
  shapeCasts_S64_S64x1 : S64.ShapeCasts S64x1
  shapeCasts_S4096x1_S4096 : S4096x1.ShapeCasts S4096
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50257.size a ≤ S4096x50257.size a
  hwx0_0 : ∀ i : grid0.Coords, EltTy.bits .f32 = 32 ∨ (Rect.block (s := S4096x50257) S64x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50257.size a ≤ S1x50257.size a
  hwx0_2 : ∀ i : grid0.Coords, EltTy.bits .i32 = 32 ∨ (Rect.block (s := S1x50257) S1x50257.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)

variable [Facts₀]

abbrev win0_0 : Pipeline.Window sig grid0 :=
  Pipeline.Window.ofSpec (Memref.whole main_arg0) S64x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x50257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  shapeCasts_S4096_S4096x1 : S4096.ShapeCasts S4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.Words.lean ====
/-
  One index word. The table has 50257 columns; an index word `w` (32 bits, read signed) names a column when
  0 ≤ w < 50257. For such a word the signed and the unsigned readings agree and are below 50257, so:
  clamping it into [0, 50256] leaves it as it is; it is not negative, so a "wrap negative indices by adding the
  extent" step leaves it as it is; it passes the bounds test 0 ≤ w ≤ 50256; and the column number j of a
  column-index row equals it exactly when j is its value. A conjunction (by `and`) over any list of bits that
  are all 1, started from 1, is 1.
-/
import Idealize.ShloMosaic.Lib.StableHlo.Predicate
import Idealize.ShloMosaic.Lib.ReduceAll

namespace Cert.Proof.Words

open Idealize.ShloMosaic Idealize.ShloMosaic.StableHlo

/-- A word that is non-negative read signed has its top bit clear: its value is below 2³¹. -/
theorem toNat_lt_of_sge_zero (w : BitVec 32) (h0 : IntOp.cmpi .sge w 0#32 = 1#1) : w.toNat < 2 ^ 31 := by
  have hs : (0#32 : BitVec 32).sle w = true := (Predicate.ofBool_eq_one_iff _).1 h0
  have h00 : (0#32 : BitVec 32).toInt = 0 := by decide
  have hi : (0 : Int) ≤ w.toInt := by
    simp only [BitVec.sle, decide_eq_true_eq, h00] at hs; exact hs
  have hc := BitVec.toInt_eq_toNat_cond w
  have hlt := w.isLt
  by_contra hn
  rw [if_neg (by omega)] at hc
  omega

/-- 0 ≤ w < 50257 read signed: the word's value is below 50257. -/
theorem toNat_lt_of_range (w : BitVec 32) (h0 : IntOp.cmpi .sge w 0#32 = 1#1) (h1 : IntOp.cmpi .slt w 50257#32 = 1#1) :
    w.toNat < 50257 := by
  have hs := toNat_lt_of_sge_zero w h0
  have e : (50257#32 : BitVec 32).toNat = 50257 := by decide
  have h := (Predicate.slt_iff_toNat hs (by rw [e]; decide)).1 h1
  rw [e] at h; exact h

/-- Between two words with clear top bits, "a < b signed" fails when b's value is at most a's. -/
theorem slt_eq_false {a b : BitVec 32} (ha : a.toNat < 2 ^ 31) (hb : b.toNat < 2 ^ 31) (h : b.toNat ≤ a.toNat) :
    a.slt b = false := by
  cases hc : a.slt b with
  | false => rfl
  | true =>
    have := (Predicate.slt_bool_iff_toNat ha hb).1 (by rw [hc]; rfl)
    omega

section InRange

variable (w : BitVec 32) (hw : w.toNat < 50257)
include hw

theorem not_neg : w.slt 0#32 = false := by
  have e : (0#32 : BitVec 32).toNat = 0 := by decide
  exact slt_eq_false (by omega) (by decide) (by rw [e]; exact Nat.zero_le _)

theorem not_above : (50256#32 : BitVec 32).slt w = false := by
  have e : (50256#32 : BitVec 32).toNat = 50256 := by decide
  exact slt_eq_false (by rw [e]; decide) (by omega) (by rw [e]; omega)

/-- Clamping into [0, 50256] (maximum with 0, then minimum with 50256) leaves an in-range word unchanged. -/
theorem clip_id : IntOp.minsi 50256#32 (IntOp.maxsi 0#32 w) = w := by
  have hmax : IntOp.maxsi 0#32 w = w := by
    unfold IntOp.maxsi; rw [not_neg w hw]; rfl
  rw [hmax]
  unfold IntOp.minsi; rw [not_above w hw]; rfl

/-- The test "w < 0" answers 0. -/
theorem neg_test : IntOp.cmpi .slt w 0#32 = 0#1 := by
  unfold IntOp.cmpi; show BitVec.ofBool (w.slt 0#32) = 0#1; rw [not_neg w hw]; rfl

/-- So the step "if w < 0 then w + 50257 else w" returns w. -/
theorem wrap_id : Scalar.select (IntOp.cmpi .slt w 0#32) (IntOp.addi w 50257#32) w = w := by
  rw [neg_test w hw]; rfl

/-- The bounds test 0 ≤ w ∧ w ≤ 50256 answers 1. -/
theorem inb_test : IntOp.andi (IntOp.cmpi .sge w 0#32) (IntOp.cmpi .sle w 50256#32) = 1#1 := by
  have e0 : (0#32 : BitVec 32).toNat = 0 := by decide
  have e1 : (50256#32 : BitVec 32).toNat = 50256 := by decide
  have a : IntOp.cmpi .sge w 0#32 = 1#1 :=
    (Predicate.sge_iff_toNat (a := w) (b := 0#32) (by omega) (by decide)).2 (by rw [e0]; exact Nat.zero_le _)
  have b : IntOp.cmpi .sle w 50256#32 = 1#1 :=
    (Predicate.sle_iff_toNat (a := w) (b := 50256#32) (by omega) (by rw [e1]; decide)).2 (by rw [e1]; omega)
  rw [a, b]; decide

/-- Read signed and cut off below at 0, the word is its value. -/
theorem toInt_toNat : w.toInt.toNat = w.toNat := by
  rw [Predicate.toInt_eq_toNat_of_lt (by omega)]; rfl

/-- The column number `j` (as a word) equals `w` exactly when `j` is `w`'s value. -/
theorem col_eq_iff (j : Nat) (hj : j < 50257) : IntOp.cmpi .eq (BitVec.ofNat 32 j) w = 1#1 ↔ j = w.toNat := by
  rw [Predicate.cmpi_eq_iff]
  constructor
  · intro h; rw [← h, BitVec.toNat_ofNat]; omega
  · intro h; apply BitVec.eq_of_toNat_eq; rw [BitVec.toNat_ofNat, h]; omega

end InRange

/-- A conjunction over a list of bits that are all 1, started from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

end Cert.Proof.Words
-- ==== Proof.TargetRange.lean ====
/-
  What the precondition says about the index input. Its second half is
  "every entry of `target` is ≥ 0 and < 50257 (read signed)", conjoined over the 4096 entries; if the whole
  precondition answers 1, each entry passes both comparisons, so each entry's value is below 50257: it names one
  of the table's 50257 columns.
-/
import proofs.«412099_j87058987090230_3_alg».proof.Pre_finite_inputs
import proofs.«412099_j87058987090230_3_alg».proof.Proof.Words
import Idealize.ShloMosaic.Lib.ReduceAll

noncomputable section

namespace Cert.Proof.TargetRange

open Idealize.ShloMosaic Cert.Pre_finite_inputs

variable [Cert.Pre_finite_inputs.Facts]

instance : Subsingleton S_.Idx := ⟨fun _ _ => funext fun d => d.elim0⟩

/-- Under the precondition every entry of the index input has a value below 50257. -/
theorem target_lt {F : FTy → Type} [FloatOps F] (x : FVec F S4096x50257 .f32) (t : IVec S4096 32)
    (h : Cert.Pre_finite_inputs.fn (F := F) x t = fun _ => 1#1) (i : S4096.Idx) : (t i).toNat < 50257 := by
  have e := congrFun h (fun d => d.elim0)
  dsimp only [Cert.Pre_finite_inputs.fn] at e
  obtain ⟨-, e2⟩ := IntOp.andi_eq_one.1 e
  obtain ⟨a, b⟩ := IntOp.andi_eq_one.1 (Host.reduce_andi_all _ _ _ _ _ e2 i)
  exact Words.toNat_lt_of_range (t i) a b

end Cert.Proof.TargetRange

end
-- ==== Proof.Payload.lean ====
/-
  The body's arithmetic at one row. A grid point holds 64 rows of the [4096 × 50257] table (x), the 64 index
  words of those rows (t, a [64 × 1] column) and the column-index row (k, [1 × 50257]). It stores, for row r,

      0 − Σ_j ( if k[0, j] = t[r, 0] then x[r, j] else 0 ):

  the comparison of the two broadcasts is a 0/1 mask over the row, the select keeps the one matching entry, the
  lane sum adds the row up, and the result is subtracted from zero. When the column-index row is the column
  numbers themselves (k[0, j] = j) and t[r, 0] has a value c below 50257, exactly one j matches (j = c), every
  other term of the sum is 0, and the sum is x[r, c].
-/
import proofs.«412099_j87058987090230_3_alg».proof.Proof.Gen.KernelIdeal.Skeleton
import proofs.«412099_j87058987090230_3_alg».proof.Proof.Words
import Idealize.ShloMosaic.Lib.ValueIdx
import Idealize.ShloMosaic.Lib.Pipeline.Value
import Idealize.ShloMosaic.PureOps.Ideal.Laws

noncomputable section

namespace Cert.Proof.Payload

open Idealize.ShloMosaic Idealize.ShloMosaic.ValueIdx Cert.KernelIdeal Cert.KernelIdeal.Gen

/-- The lane sum of a [64 × 50257] vector along its columns, at row `r`, is the sum of that row's entries. -/
theorem rowsum_apply (src : FVec Idealize.ShloMosaic.Ideal S64x50257 .f32) (h : S64x50257.Reduces [1] S64)
    (hφ : FKind.Formats FTy.f32) (hacc : (0x00000000#32 : BitVec 32) = 0x00000000#32) (r : Fin 64) :
    multiReduction .add [1] S64 src 0x00000000#32 h hφ hacc (ix1 r) = ∑ j : Fin 50257, src (ix2 r j) := by
  refine (Ideal.multiReduction_add_single src 0x00000000#32 h hφ hacc (ix1 r)).trans ?_
  refine Finset.sum_congr rfl fun j _ => congrArg src ?_
  funext a; apply Fin.ext
  match a with
  | ⟨0, _⟩ => rfl
  | ⟨1, _⟩ => rfl

/-- What the body stores at row `r`: zero minus the row's masked sum. -/
theorem stored_row (t : Vec Idealize.ShloMosaic.Ideal S64x1 .i32) (k : Vec Idealize.ShloMosaic.Ideal S1x50257 .i32)
    (x : Vec Idealize.ShloMosaic.Ideal S64x50257 .f32) (r : Fin 64) (z : Fin 1) :
    k0_pay1 (F := Idealize.ShloMosaic.Ideal) t k x (ix2 r z)
      = (0 : EReal) - ∑ j : Fin 50257,
          Scalar.select (IntOp.cmpi .eq (k (ix2 (0 : Fin 1) j)) (t (ix2 r (0 : Fin 1)))) (x (ix2 r j)) (0 : EReal) := by
  unfold k0_pay1
  simp only [subf_apply, broadcast_apply]
  rw [shapeCast_apply _ shapeCasts_S64_S64x1 (ix2 r z) (ix1 r) (by
    rw [Shape.rowMajor_val_one, Shape.rowMajor_val_two]; have := z.isLt; show r.val = r.val * 1 + z.val; omega)]
  rw [rowsum_apply, shapeCast_self, shapeCast_self, Ideal.ofBits_def, Ideal.ofBits_zero_f32]
  refine congrArg (fun s : EReal => (0 : EReal) - s) (Finset.sum_congr rfl fun j _ => ?_)
  show Scalar.select (IntOp.cmpi .eq (broadcastTo S64x50257 k broadcasts_S1x50257_S64x50257 (ix2 r j))
      (broadcastTo S64x50257 t broadcasts_S64x1_S64x50257 (ix2 r j))) (x (ix2 r j)) (0 : EReal) = _
  rw [broadcastTo_apply k broadcasts_S1x50257_S64x50257 (ix2 r j) (ix2 (0 : Fin 1) j) (fun a => match a with
      | ⟨0, _⟩ => by show 0 = if (1 : Nat) = 1 then 0 else _; rw [if_pos rfl]
      | ⟨1, _⟩ => by show j.val = if (50257 : Nat) = 1 then 0 else j.val; rw [if_neg (by decide)]),
    broadcastTo_apply t broadcasts_S64x1_S64x50257 (ix2 r j) (ix2 r (0 : Fin 1)) (fun a => match a with
      | ⟨0, _⟩ => by show r.val = if (64 : Nat) = 1 then 0 else r.val; rw [if_neg (by decide)]
      | ⟨1, _⟩ => by show 0 = if (1 : Nat) = 1 then 0 else _; rw [if_pos rfl])]

/-- A sum over the 50257 columns that keeps only the column whose number equals the word `w` (value below 50257)
    is the kept entry. -/
theorem masked_sum (w : BitVec 32) (hw : w.toNat < 50257) (f : Fin 50257 → EReal) :
    ∑ j : Fin 50257, Scalar.select (IntOp.cmpi .eq (BitVec.ofNat 32 j.val) w) (f j) (0 : EReal) = f ⟨w.toNat, hw⟩ := by
  rw [Finset.sum_eq_single (⟨w.toNat, hw⟩ : Fin 50257)]
  · show Scalar.select (IntOp.cmpi .eq (BitVec.ofNat 32 w.toNat) w) _ _ = _
    rw [(Words.col_eq_iff w hw _ hw).2 rfl, select_one]
  · intro j _ hj
    have hne : ¬ IntOp.cmpi .eq (BitVec.ofNat 32 j.val) w = 1#1 :=
      fun h => hj (Fin.ext ((Words.col_eq_iff w hw _ j.isLt).1 h))
    rw [eq_zero_of_ne_one hne, select_zero]
  · intro h; exact absurd (Finset.mem_univ _) h

end Cert.Proof.Payload

end
-- ==== Proof.KernelBlocks.lean ====
/-
  The [4096 × 1] array the region leaves. The grid has 64 points; point b works on rows 64·b … 64·b + 63: its
  block of the table x is those 64 rows (all 50257 columns), its block of the index column t those 64 entries,
  its block of the column-index row k the whole row (the same at every point), and it writes back rows
  64·b … 64·b + 63 of the output column. What it writes at row r of its block is the body's masked row sum, which
  only reads row 64·b + r of x and of t: so every written block is the matching block of ONE column,

      rowval x t k [i, 0] = 0 − Σ_j ( if k[0, j] = t[i, 0] then x[i, j] else 0 ),

  and since the 64 blocks cover all 4096 rows (row i lies in block i / 64) the array ends as that column.
-/
import proofs.«412099_j87058987090230_3_alg».proof.Proof.Gen.KernelIdeal.Frame
import proofs.«412099_j87058987090230_3_alg».proof.Proof.Payload
import Idealize.ShloMosaic.Lib.Pipeline.Value

set_option maxRecDepth 16384

noncomputable section

namespace Cert.Proof.KernelBlocks

open Idealize.ShloMosaic Idealize.ShloMosaic.TcCoe Idealize.ShloMosaic.ValueIdx Idealize.SL.Sem
open Cert.KernelIdeal Cert.KernelIdeal.Gen
open Idealize.ShloMosaic.Pipeline (Dat Cfg Window)

local notation "𝕀" => Idealize.ShloMosaic.Ideal

/-- The output column as one function of the table, the index column and the column-index row. -/
def rowval (X : S4096x50257.Idx → EReal) (Tc : S4096x1.Idx → BitVec 32) (K : S1x50257.Idx → BitVec 32) : S4096x1.Idx → EReal :=
  fun i => (0 : EReal) - ∑ j : Fin 50257,
    Scalar.select (IntOp.cmpi .eq (K (ix2 (0 : Fin 1) j)) (Tc (ix2 (i 0) (0 : Fin 1)))) (X (ix2 (i 0) j)) (0 : EReal)

/-- One row of one point: if row `r` of the point's blocks is row `i 0` of the arrays, the body's stored value at
    row `r` is the column's entry at `i`. -/
theorem point_value (X : S4096x50257.Idx → EReal) (Tc : S4096x1.Idx → BitVec 32) (K : S1x50257.Idx → BitVec 32)
    (xb : Vec 𝕀 S64x50257 .f32) (tb : Vec 𝕀 S64x1 .i32) (kb : Vec 𝕀 S1x50257 .i32) (r : Fin 64) (z : Fin 1) (i : S4096x1.Idx)
    (hx : ∀ j : Fin 50257, xb (ix2 r j) = X (ix2 (i 0) j))
    (ht : tb (ix2 r (0 : Fin 1)) = Tc (ix2 (i 0) (0 : Fin 1)))
    (hk : ∀ j : Fin 50257, kb (ix2 (0 : Fin 1) j) = K (ix2 (0 : Fin 1) j)) :
    k0_pay1 (F := 𝕀) tb kb xb (ix2 r z) = rowval X Tc K i := by
  rw [Payload.stored_row]
  unfold rowval
  refine congrArg (fun s : EReal => (0 : EReal) - s) (Finset.sum_congr rfl fun j _ => ?_)
  rw [hx, ht, hk]

variable (m : (ℓ : Loc nD τ sig) → Buf (Elt 𝕀) ℓ)

theorem origin : (![0, 0] : Fin 2 → Nat) = fun _ => 0 := funext fun a => by fin_cases a <;> rfl

/-- The block numbers at point `b`: rows move with the point for the table, the index column and the output;
    the column-index row stays at block (0, 0). -/
theorem block_numbers : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the column. -/
theorem written_block (c : Dev nD) (t : Fin cfg0.N) : (dats m 0 c).flushed 3 t
    = ((cfg0.win 3).blk t).view.read (Elt 𝕀) (rowval (V m c main_arg0) (V m c main_v1) (V m c main_v2)) := by
  show (cfg0.win 3).cut (grid0.coords t) ((dats m 0 c).after 3 t) = _
  rw [after0_3]
  unfold out0_3
  rw [View.canon_unit_zero origin]
  simp only [View.ld_unit_zero (S := S64x1) origin, View.ld_unit_zero (S := S1x50257) origin, View.ld_unit_zero (S := S64x50257) origin]
  funext y
  obtain ⟨r, z, rfl⟩ : ∃ (r : Fin 64) (z : Fin 1), y = ix2 r z := ⟨y 0, y 1, eq_ix2 y⟩
  obtain ⟨e00, e01, e10, e11, e20, e21, e30, e31⟩ := block_numbers t
  rw [View.read_apply]
  show k0_pay1 (F := 𝕀) (iblk m c 1 t) (iblk m c 2 t) (iblk m c 0 t) (ix2 r z)
    = rowval (V m c main_arg0) (V m c main_v1) (V m c main_v2) (((cfg0.win 3).blk t).view.emb (ix2 r z))
  refine point_value _ _ _ _ _ _ r z _ ?_ ?_ ?_
  · intro j
    unfold iblk
    rw [View.read_apply]
    show V m c main_arg0 (((cfg0.win 0).blk t).view.emb (ix2 r j)) = V m c main_arg0 _
    refine congrArg _ (funext fun a => Fin.ext ?_)
    match a with
    | ⟨0, _⟩ => show win0_0.index t (0 : Fin 2) * 64 + 1 * r.val = win0_3.index t (0 : Fin 2) * 64 + 1 * r.val; omega
    | ⟨1, _⟩ => show win0_0.index t (1 : Fin 2) * 50257 + 1 * j.val = j.val; omega
  · unfold iblk
    rw [View.read_apply]
    show V m c main_v1 (((cfg0.win 1).blk t).view.emb (ix2 r (0 : Fin 1))) = V m c main_v1 _
    refine congrArg _ (funext fun a => Fin.ext ?_)
    match a with
    | ⟨0, _⟩ => show win0_1.index t (0 : Fin 2) * 64 + 1 * r.val = win0_3.index t (0 : Fin 2) * 64 + 1 * r.val; omega
    | ⟨1, _⟩ => show win0_1.index t (1 : Fin 2) * 1 + 1 * 0 = 0; omega
  · intro j
    unfold iblk
    rw [View.read_apply]
    show V m c main_v2 (((cfg0.win 2).blk t).view.emb (ix2 (0 : Fin 1) j)) = V m c main_v2 _
    refine congrArg _ (funext fun a => Fin.ext ?_)
    match a with
    | ⟨0, _⟩ => show win0_2.index t (0 : Fin 2) * 1 + 1 * 0 = 0; omega
    | ⟨1, _⟩ => show win0_2.index t (1 : Fin 2) * 50257 + 1 * j.val = j.val; omega

/-- An index of the output column lies in point `t`'s block iff each coordinate lies in the block's range. -/
theorem mem_block (t : Fin cfg0.N) (i : S4096x1.Idx) :
    i ∈ ((cfg0.win 3).blk t).view.set ↔ ∀ a : Fin 2, win0_3.index t a * S64x1.size a ≤ (i a).val ∧ (i a).val < win0_3.index t a * S64x1.size a + S64x1.size a := by
  show i ∈ ((View.whole main_v3).slice (win0_3.rect t)).set ↔ _
  rw [View.set_slice_whole, Rect.mem_set_unit]
  exact Iff.rfl

/-- Every row is written: row `i` by point `i / 64`. -/
theorem all_written (i : S4096x1.Idx) : ∃ t : Fin cfg0.N, (cfg0.win 3).flush t = true ∧ i ∈ ((cfg0.win 3).blk t).view.set := by
  have h0 : (i 0).val < 4096 := (i 0).isLt
  have h1 : (i 1).val < 1 := (i 1).isLt
  refine ⟨⟨(i 0).val / 64, by rw [show cfg0.N = 64 from N_0]; omega⟩, flush0_3 _, ?_⟩
  rw [mem_block]
  obtain ⟨-, -, -, -, -, -, e30, e31⟩ := block_numbers ⟨(i 0).val / 64, by rw [show cfg0.N = 64 from N_0]; omega⟩
  intro a
  match a with
  | ⟨0, _⟩ =>
    show win0_3.index _ (0 : Fin 2) * 64 ≤ (i 0).val ∧ (i 0).val < win0_3.index _ (0 : Fin 2) * 64 + 64
    rw [e30]
    show (i 0).val / 64 * 64 ≤ (i 0).val ∧ (i 0).val < (i 0).val / 64 * 64 + 64
    omega
  | ⟨1, _⟩ =>
    show win0_3.index _ (1 : Fin 2) * 1 ≤ (i 1).val ∧ (i 1).val < win0_3.index _ (1 : Fin 2) * 1 + 1
    rw [e31]; omega

/-- The output array after the region is the column. -/
theorem output_array (c : Dev nD) : (dats m 0 c).arrAt 3 cfg0.N = rowval (V m c main_arg0) (V m c main_v1) (V m c main_v2) :=
  (dats m 0 c).arrAt_eq_of_cover 3 _ (fun t _ => written_block m c t) all_written

end Cert.Proof.KernelBlocks

end
-- ==== Proof.Spec.lean ====
/-
  What both programs compute, as one function of the argument arrays. x is the [4096 × 50257] table, t the 4096
  index words. Row i picks the entry x[i, c(t[i])], where c(w) is the word's value cut off at the last column
  (min(w, 50256): for an index that names a column this is the index itself); the row's term is its negation,
  and the result is the mean of the 4096 terms: their sum, started from 0, divided by 4096.
-/
import Idealize.ShloMosaic.PureOps.Ideal
import Idealize.ShloMosaic.Lib.ValueIdx

noncomputable section

namespace Cert.Proof.Spec

open Idealize.ShloMosaic Idealize.ShloMosaic.ValueIdx

abbrev Tbl : Shape := ⟨2, ![4096, 50257]⟩
abbrev Rows : Shape := ⟨1, ![4096]⟩
abbrev Sc : Shape := ⟨0, ![]⟩

theorem rows_reduce : Rows.ReducesTo [0] Sc := by decide
theorem sc_pos : 0 < Sc.numel := by decide

/-- The column an index word names: its value, cut off at the last column. -/
def col (w : BitVec 32) : Fin 50257 := ⟨min w.toNat 50256, by omega⟩

/-- For a word whose value is below 50257 that column is the value itself. -/
theorem col_of_lt (w : BitVec 32) (hw : w.toNat < 50257) : col w = ⟨w.toNat, hw⟩ :=
  Fin.ext (by show min w.toNat 50256 = w.toNat; omega)

/-- Row i's term: minus the picked entry. -/
def negPicked (x : Tbl.Idx → EReal) (t : Rows.Idx → BitVec 32) : Rows.Idx → EReal :=
  fun i => -(x (ix2 (i 0) (col (t i))))

/-- The mean of 4096 terms: their sum from 0, divided by 4096. -/
def mean (v : Rows.Idx → EReal) : Sc.Idx → EReal :=
  Host.divf (F := Idealize.ShloMosaic.Ideal)
    (Host.reduceAdd (F := Idealize.ShloMosaic.Ideal) (φ := .f32) v (constant (F := Idealize.ShloMosaic.Ideal) Sc .f32 0x00000000#32) rows_reduce sc_pos)
    (constant (F := Idealize.ShloMosaic.Ideal) Sc .f32 0x45800000#32)

/-- The result: the mean over the rows of minus the picked entry. -/
def result (x : Tbl.Idx → EReal) (t : Rows.Idx → BitVec 32) : Sc.Idx → EReal := mean (negPicked x t)

end Cert.Proof.Spec

end
-- ==== Proof.KernelValue.lean ====
/-
  The kernel program's result. Before the region the host clamps every index word into [0, 50256] and lays
  the words out as a [4096 × 1] column (t), and builds the column-index row k[0, j] = j. The region leaves the
  column rowval x t k (the module on the region's output). After it the host reads the column as a vector of 4096
  entries, sums it from 0 and divides by 4096.
  When every index word names a column (value below 50257) the clamp changes nothing, exactly one column number
  equals the word, so row i's masked sum is x[i, t[i]] and the column's entry is 0 − x[i, t[i]] = −x[i, t[i]]: the
  vector is the specification's row terms and the result its mean.
-/
import proofs.«412099_j87058987090230_3_alg».proof.Proof.KernelBlocks
import proofs.«412099_j87058987090230_3_alg».proof.Proof.Spec
import Idealize.ShloMosaic.Lib.StableHlo.Run

set_option maxRecDepth 16384

noncomputable section

namespace Cert.Proof.KernelValue

open Idealize.ShloMosaic Idealize.ShloMosaic.TcCoe Idealize.ShloMosaic.ValueIdx Idealize.SL.Sem
open Cert.KernelIdeal Cert.KernelIdeal.Gen Cert.Proof.KernelBlocks
open Idealize.ShloMosaic.Pipeline (Dat Cfg Window)

local notation "𝕀" => Idealize.ShloMosaic.Ideal

/-- One row of the column when the row's index word `t[R]` names a column, the index column holds the clamped
    words and the column-index row the column numbers: the clamp is the identity, one column number matches, and
    0 − x[R, t[R]] is minus the picked entry. -/
theorem rowval_in_range (X : S4096x50257.Idx → EReal) (Tc : S4096x1.Idx → BitVec 32) (K : S1x50257.Idx → BitVec 32)
    (t : S4096.Idx → BitVec 32) (R : Fin 4096) (hw : (t (ix1 R)).toNat < 50257)
    (hT : Tc (ix2 R (0 : Fin 1)) = IntOp.minsi 50256#32 (IntOp.maxsi 0#32 (t (ix1 R))))
    (hK : ∀ j : Fin 50257, K (ix2 (0 : Fin 1) j) = BitVec.ofNat 32 j.val) :
    rowval X Tc K (ix2 R (0 : Fin 1)) = Spec.negPicked X t (ix1 R) := by
  unfold rowval
  show (0 : EReal) - ∑ j : Fin 50257, Scalar.select (IntOp.cmpi .eq (K (ix2 (0 : Fin 1) j)) (Tc (ix2 R (0 : Fin 1))))
      (X (ix2 R j)) (0 : EReal) = _
  rw [hT, Words.clip_id _ hw, Finset.sum_congr rfl (fun j _ => by rw [hK j]),
    Payload.masked_sum _ hw (fun j => X (ix2 R j)), zero_sub]
  unfold Spec.negPicked
  rw [Spec.col_of_lt _ hw]

variable (m : (ℓ : Loc nD τ sig) → Buf (Elt 𝕀) ℓ)

/-! ## The host lines before the region -/

/-- The index column as the region finds it: the clamped words, reshaped. -/
theorem index_column (c : Dev nD) : (V m c main_v1 : S4096x1.Idx → BitVec 32) =
    shapeCast S4096x1 (minsi (broadcastInDim S4096 ![] bcast_S_S4096 (constantI S_ 32 50256#32))
      (maxsi (broadcastInDim S4096 ![] bcast_S_S4096 (constantI S_ 32 0#32)) (m ((c : Thread nD τ).loc main_arg1)))) shapeCasts_S4096_S4096x1 := by
  dsimp only [V, V0]
  simp only [hostOps0, hostOps0_1, hostOps0_2, List.flatten_cons, List.flatten_nil, List.append_nil, List.cons_append, List.nil_append]
  after_results
  rfl

/-- The column-index row as the region finds it: the column numbers. -/
theorem column_numbers (c : Dev nD) : (V m c main_v2 : S1x50257.Idx → BitVec 32) = iotaInDim S1x50257 32 1 := by
  dsimp only [V, V0]
  simp only [hostOps0, hostOps0_1, hostOps0_2, List.flatten_cons, List.flatten_nil, List.append_nil, List.cons_append, List.nil_append]
  after_results

/-- Entry R of the index column is word R of the index input, clamped. -/
theorem index_column_apply (c : Dev nD) (R : Fin 4096) :
    V m c main_v1 (ix2 R (0 : Fin 1)) = IntOp.minsi 50256#32 (IntOp.maxsi 0#32 (m ((c : Thread nD τ).loc main_arg1) (ix1 R))) := by
  rw [index_column]
  rw [shapeCast_apply _ shapeCasts_S4096_S4096x1 (ix2 R (0 : Fin 1)) (ix1 R) (by
    rw [Shape.rowMajor_val_one, Shape.rowMajor_val_two]; show R.val = R.val * 1 + 0; omega)]
  rfl

/-- Entry j of the column-index row is j. -/
theorem column_numbers_apply (c : Dev nD) (j : Fin 50257) : V m c main_v2 (ix2 (0 : Fin 1) j) = BitVec.ofNat 32 j.val := by
  rw [column_numbers]; rfl

/-! ## The host lines after the region -/

/-- The lines after the region, as one function of the region's output column. -/
def tail (v : S4096x1.Idx → EReal) : S_.Idx → EReal :=
  Host.divf (F := 𝕀) (Host.reduceAdd (F := 𝕀) (shapeCast S4096 v shapeCasts_S4096x1_S4096) (constant (F := 𝕀) S_ .f32 0x00000000#32) reducesTo_S4096_S_d0 h_S_)
    (constant (F := 𝕀) S_ .f32 0x45800000#32)

/-- The program's result buffer after the run: the tail applied to the region's column. -/
theorem result_buffer (c : Dev nD) : Pipeline.afterTail₀ cfgs (dats m) 0 (V0 m) [hostOps1] c main_v6
    = tail (rowval (V m c main_arg0) (V m c main_v1) (V m c main_v2)) := by
  unfold Pipeline.afterTail₀
  show StableHlo.after hostOps1 _ (Proc.devRef .tc main_v6) = _
  after_results
  show tail (Pipeline.withArrays spec0 c (V0 m c) (fun w => (dats m 0 c).arrAt w cfg0.N) (Proc.devRef .tc (Pipeline.arrRef spec0 3))) = _
  rw [Pipeline.withArrays_arr spec0 launch0.win.arr_inj c _ _ 3, output_array]

/-! ## In range: the column is the specification's row terms -/

/-- With every index word naming a column, the column's entry at row R is minus the picked entry. -/
theorem column_in_range (c : Dev nD) (hT : ∀ i : S4096.Idx, (m ((c : Thread nD τ).loc main_arg1) i).toNat < 50257) (R : Fin 4096) :
    rowval (V m c main_arg0) (V m c main_v1) (V m c main_v2) (ix2 R (0 : Fin 1))
      = Spec.negPicked (m ((c : Thread nD τ).loc main_arg0)) (m ((c : Thread nD τ).loc main_arg1)) (ix1 R) := by
  rw [V_main_arg0]
  exact rowval_in_range (m ((c : Thread nD τ).loc main_arg0)) (V m c main_v1) (V m c main_v2) (m ((c : Thread nD τ).loc main_arg1)) R
    (hT (ix1 R)) (index_column_apply m c R) (column_numbers_apply m c)

/-- So the result buffer is the specification's result. -/
theorem result_in_range (c : Dev nD) (hT : ∀ i : S4096.Idx, (m ((c : Thread nD τ).loc main_arg1) i).toNat < 50257) :
    tail (rowval (V m c main_arg0) (V m c main_v1) (V m c main_v2))
      = Spec.result (m ((c : Thread nD τ).loc main_arg0)) (m ((c : Thread nD τ).loc main_arg1)) := by
  have e : shapeCast S4096 (rowval (V m c main_arg0) (V m c main_v1) (V m c main_v2)) shapeCasts_S4096x1_S4096
      = Spec.negPicked (m ((c : Thread nD τ).loc main_arg0)) (m ((c : Thread nD τ).loc main_arg1)) := by
    funext i
    obtain ⟨R, rfl⟩ : ∃ R : Fin 4096, i = ix1 R := ⟨i 0, eq_ix1 i⟩
    rw [shapeCast_apply _ shapeCasts_S4096x1_S4096 (ix1 R) (ix2 R (0 : Fin 1)) (by
      rw [Shape.rowMajor_val_one, Shape.rowMajor_val_two]; show R.val * 1 + 0 = R.val; omega)]
    exact column_in_range m c hT R
  unfold tail Spec.result Spec.mean
  rw [e]

/-! ## The run -/

/-- Every weakly fair execution of the kernel program terminates with its result buffer at the tail of the
    region's column and its arguments unchanged. -/
theorem run (ρ : Dev nD → PrngReg) :
    θ_run defs (onTc (τ := τ) (main (F := 𝕀))) ⟨m, fun _ => 0, ρ⟩ (fun r => ∀ c : Dev nD,
      r.2.mem ((c.tc : Thread nD τ).loc main_v6) = tail (rowval (V m c main_arg0) (V m c main_v1) (V m c main_v2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (result_buffer m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.Proof.KernelValue

end
-- ==== Proof.RefValue.lean ====
/-
  The reference program's result. It takes the index words as a [4096 × 1] column, adds 50257 to a negative
  word, tests the outcome against [0, 50256], gathers x[i, ·] at it (the gather cuts its start index off into
  [0, 50256]) and keeps the gathered entry where the test passed; then it negates, sums the 4096 entries from 0
  and divides by 4096.
  When every index word names a column (value below 50257) no word is negative, so the wrap step returns the
  word; every test passes, so the select keeps the gathered entry; and the gather's cut-off start index is the
  word's value. Row i is then −x[i, t[i]]: the specification's row term, and the result its mean.
-/
import proofs.«412099_j87058987090230_3_alg».proof.Proof.Gen.ReferenceIdeal.Read
import proofs.«412099_j87058987090230_3_alg».proof.Proof.Spec
import proofs.«412099_j87058987090230_3_alg».proof.Proof.Words
import Idealize.ShloMosaic.Lib.ValueIdx
import Idealize.ShloMosaic.PureOps.Reduce

set_option maxRecDepth 16384

noncomputable section

namespace Cert.Proof.RefValue

open Idealize.ShloMosaic Idealize.ShloMosaic.ValueIdx
open Cert.ReferenceIdeal Cert.ReferenceIdeal.Gen Cert.ReferenceIdeal.Read

local notation "𝕀" => Idealize.ShloMosaic.Ideal
local notation "gd" => gather_S4096x50257_S4096x1x1_S4096x1_n_1_0_0_1_2_11

/-- The gather at row R: axis 0 of the table is a batching axis (the row is the result's row), axis 1 is collapsed
    and is the one axis the start index names, so the entry read is x[R, s] with s the start index of row R read
    signed and cut off into [0, 50256]. -/
theorem gather_row {α : Type} (x : S4096x50257.Idx → α) (idx : IVec S4096x1x1 32) (R : Fin 4096) (z : Fin 1) :
    Host.gather gd x idx (ix2 R z)
      = x (ix2 R ⟨min (idx (ix3 R (0 : Fin 1) (0 : Fin 1))).toInt.toNat 50256, by omega⟩) := by
  unfold Host.gather
  refine congrArg x (funext fun a => Fin.ext ?_)
  match a with
  | ⟨0, _⟩ =>
    show GatherDims.start gd (ix2 R z) idx (0 : Fin 2) + GatherDims.batchCoord gd (ix2 R z) (0 : Fin 2)
      + GatherDims.offCoord gd (ix2 R z) (0 : Fin 2) = R.val
    have hb : (0 : Fin 2) ∈ GatherDims.operandBatchingDims gd := List.mem_singleton.2 rfl
    rw [GatherDims.start_batching gd _ idx _ hb,
      GatherDims.offCoord_eq_zero gd _ _ (fun h => ((GatherDims.mem_sKept gd _).1 h).2 hb)]
    show 0 + GatherDims.batchCoord gd (ix2 R z) (0 : Fin 2) + 0 = R.val
    have hbc : GatherDims.batchCoord gd (ix2 R z) (0 : Fin 2) = R.val := by
      unfold GatherDims.batchCoord
      rw [dif_pos hb]
      rfl
    omega
  | ⟨1, _⟩ =>
    show GatherDims.start gd (ix2 R z) idx (1 : Fin 2) + GatherDims.batchCoord gd (ix2 R z) (1 : Fin 2)
      + GatherDims.offCoord gd (ix2 R z) (1 : Fin 2) = min (idx (ix3 R (0 : Fin 1) (0 : Fin 1))).toInt.toNat 50256
    have hc : (1 : Fin 2) ∈ GatherDims.collapsedSliceDims gd := List.mem_singleton.2 rfl
    have hm : (1 : Fin 2) ∈ GatherDims.startIndexMap gd := List.mem_singleton.2 rfl
    have hnb : (1 : Fin 2) ∉ GatherDims.operandBatchingDims gd := by decide
    rw [GatherDims.batchCoord_eq_zero gd _ _ hnb,
      GatherDims.offCoord_eq_zero gd _ _ (fun h => ((GatherDims.mem_sKept gd _).1 h).1 hc)]
    unfold GatherDims.start
    rw [dif_pos hm]
    have hsi : GatherDims.siIdx gd (ix2 R z) ⟨List.idxOf (1 : Fin 2) (GatherDims.startIndexMap gd),
        List.idxOf_lt_length_iff.2 hm⟩ = ix3 R (0 : Fin 1) (0 : Fin 1) := by
      funext b; refine Fin.ext ?_
      match b with
      | ⟨0, _⟩ => rfl
      | ⟨1, _⟩ => show z.val = 0; omega
      | ⟨2, _⟩ => rfl
    rw [hsi]
    rfl

variable (x0 : S4096x50257.Idx → EReal) (x1 : S4096.Idx → BitVec 32) (hT : ∀ i : S4096.Idx, (x1 i).toNat < 50257)
include hT

/-- The wrapped start index of row R is the row's index word. -/
theorem start_index (R : Fin 4096) (y z : Fin 1) : val_main_call0_v5 (F := 𝕀) x1 (ix3 R y z) = x1 (ix1 R) := by
  rw [val_main_call0_v5_apply, val_main_call0_v4_apply, val_main_call0_v1_apply, val_main_call0_v3_apply, val_main_v0_apply,
    val_main_call0_v0_apply, val_main_call0_v2_apply, val_main_call0_c_apply, val_main_call0_c_0_apply]
  have e : idx_main_v0 (idx_main_call0_v5 (ix3 R y z)) = ix1 R := by
    funext a; refine Fin.ext ?_
    match a with
    | ⟨0, _⟩ => show ((R.val * 1 + y.val) * 1 + z.val) / 1 * 1 + 0 = R.val; omega
  rw [e]
  exact Words.wrap_id _ (hT _)

/-- Every start index passes the bounds test. -/
theorem in_bounds (i3 : S4096x1x1.Idx) : val_main_call0_v11 (F := 𝕀) x1 i3 = 1#1 := by
  obtain ⟨R, y, z, rfl⟩ : ∃ (R : Fin 4096) (y z : Fin 1), i3 = ix3 R y z := ⟨i3 0, i3 1, i3 2, eq_ix3 i3⟩
  rw [val_main_call0_v11_apply, val_main_call0_v7_apply, val_main_call0_v10_apply, start_index x1 hT,
    val_main_call0_v6_apply, val_main_call0_c_2_apply, val_main_call0_v9_apply, val_main_call0_v8_apply, val_main_call0_c_1_apply]
  exact Words.inb_test _ (hT _)

/-- So the conjunction of the tests over the index vector's axis is 1 at every row. -/
theorem in_bounds_all (y : S4096x1.Idx) : val_main_call0_v12 (F := 𝕀) x1 y = 1#1 := by
  unfold val_main_call0_v12
  rw [Host.reduce_eq_foldl]
  exact Words.foldl_andi_ones _ (in_bounds x1 hT) _

/-- The reference's negated vector is the specification's row terms. -/
theorem rows_eq : val_main_v3 (F := 𝕀) x0 x1 = Spec.negPicked x0 x1 := by
  funext i
  obtain ⟨R, rfl⟩ : ∃ R : Fin 4096, i = ix1 R := ⟨i 0, eq_ix1 i⟩
  rw [val_main_v3_apply, val_main_v2_apply, val_main_v1_apply, in_bounds_all x1 hT, select_one]
  have e : idx_main_v2 (ix1 R) = ix2 R (0 : Fin 1) := by
    funext a; refine Fin.ext ?_
    match a with
    | ⟨0, _⟩ => show R.val / 1 = R.val; omega
    | ⟨1, _⟩ => rfl
  rw [e]
  unfold val_main_call0_v13
  rw [gather_row]
  show -(x0 (ix2 R ⟨min (val_main_call0_v5 (F := 𝕀) x1 (ix3 R (0 : Fin 1) (0 : Fin 1))).toInt.toNat 50256, _⟩)) = _
  unfold Spec.negPicked
  refine congrArg (fun e : EReal => -e) (congrArg x0 ?_)
  funext a; refine Fin.ext ?_
  match a with
  | ⟨0, _⟩ => rfl
  | ⟨1, _⟩ =>
    show min (val_main_call0_v5 (F := 𝕀) x1 (ix3 R (0 : Fin 1) (0 : Fin 1))).toInt.toNat 50256 = min (x1 (ix1 R)).toNat 50256
    rw [start_index x1 hT, Words.toInt_toNat _ (hT _)]

/-- The reference's result is the specification's. -/
theorem result_eq : val_main_v5 (F := 𝕀) x0 x1 = Spec.result x0 x1 := by
  unfold val_main_v5 val_main_v4 Spec.result Spec.mean
  rw [rows_eq x0 x1 hT]
  rfl

end Cert.Proof.RefValue

end
-- ==== Proof.lean ====
/-
  The claim: a masked row sum against a gather.

  Both programs take a [4096 × 50257] table x of log-probabilities and 4096 index words t and return
  −(1/4096)·Σ_i x[i, t[i]]. The reference gathers x[i, t[i]] directly (negative indices wrapped by adding 50257,
  out-of-range ones replaced by NaN). The kernel clamps t into [0, 50256], and for each row adds up the row with
  every entry but the one whose column number equals the clamped index replaced by 0, then subtracts the sum from 0.
  The two treat an index outside [0, 50257) differently (wrap or NaN against clamp), so the precondition asks that
  every index name a column: 0 ≤ t[i] < 50257. Under it the clamp and the wrap are both the identity, the bounds
  test passes, exactly one column matches, and each program's row term is −x[i, t[i]]; both then take the same
  sum from 0 and the same quotient by 4096, so the results are equal, element by element, as extended reals.
  No law that needs finiteness is used (a sum whose other terms are 0, and 0 − a = −a).

  The frames of the two kernel programs are the generated ones; the reference's frame is its generated run with
  the result dropped; nothing was rewritten by the idealization, so `preserves` is trivial.
-/
import proofs.«412099_j87058987090230_3_alg».proof.Defs
import proofs.«412099_j87058987090230_3_alg».proof.Proof.Gen.Kernel
import proofs.«412099_j87058987090230_3_alg».proof.Proof.Gen.Kernel.Skeleton
import proofs.«412099_j87058987090230_3_alg».proof.Proof.Gen.Kernel.Launch
import proofs.«412099_j87058987090230_3_alg».proof.Proof.Gen.Kernel.Points
import proofs.«412099_j87058987090230_3_alg».proof.Proof.Gen.Kernel.Frame
import proofs.«412099_j87058987090230_3_alg».proof.Proof.Gen.KernelIdeal
import proofs.«412099_j87058987090230_3_alg».proof.Proof.Gen.KernelIdeal.Skeleton
import proofs.«412099_j87058987090230_3_alg».proof.Proof.Gen.KernelIdeal.Launch
import proofs.«412099_j87058987090230_3_alg».proof.Proof.Gen.KernelIdeal.Points
import proofs.«412099_j87058987090230_3_alg».proof.Proof.Gen.KernelIdeal.Frame
import proofs.«412099_j87058987090230_3_alg».proof.Proof.Gen.ReferenceIdeal
import proofs.«412099_j87058987090230_3_alg».proof.Proof.Gen.ReferenceIdeal.Run
import proofs.«412099_j87058987090230_3_alg».proof.Proof.Gen.ReferenceIdeal.Read
import proofs.«412099_j87058987090230_3_alg».proof.Proof.Gen.Pre_finite_inputs
import proofs.«412099_j87058987090230_3_alg».proof.Proof.TargetRange
import proofs.«412099_j87058987090230_3_alg».proof.Proof.KernelValue
import proofs.«412099_j87058987090230_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2)
    (Cert.ReferenceIdeal.Value.run (F := Idealize.ShloMosaic.Ideal) m ρ)

theorem preserves : Cert.preserves_Kernel_KernelIdeal := trivial

/-- Under the precondition every index word names a column; then the kernel's result buffer and the reference's
    are both the specification's result of the (agreeing) arguments. -/
theorem algebraic : Cert.algebraic_KernelIdeal_ReferenceIdeal := by
  intro m ρ m' ρ' hpre hagree
  have hT : ∀ (c : Dev Cert.KernelIdeal.nD) (i : Cert.KernelIdeal.S4096.Idx),
      (m ((c.tc : Thread Cert.KernelIdeal.nD Cert.KernelIdeal.τ).loc Cert.KernelIdeal.main_arg1) i).toNat < 50257 :=
    fun c i => TargetRange.target_lt _ _ (hpre c) i
  refine ⟨fun c => Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (KernelValue.result_in_range m c (hT c)), (h c).2⟩) (KernelValue.run m ρ)
  · refine (θ_run Cert.ReferenceIdeal.defs _ _).mono (fun _ h c => ⟨?_, (h c).2⟩)
      (Cert.ReferenceIdeal.Value.run (F := Idealize.ShloMosaic.Ideal) m' ρ')
    rw [(h c).1, Cert.ReferenceIdeal.Read.val_main_v5_eq, (hagree c).1, (hagree c).2]
    exact RefValue.result_eq _ _ (hT c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
